-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S64x32 : Shape := ⟨2, ![64, 32]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000x32 .f32) (main_arg3 : FVec F S64x32 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S64x32 : Shape := ⟨2, ![64, 32]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S16000x32 : Shape := ⟨2, ![16000, 32]⟩
abbrev S16000x64 : Shape := ⟨2, ![16000, 64]⟩
abbrev S32x64 : Shape := ⟨2, ![32, 64]⟩
abbrev S10000x64 : Shape := ⟨2, ![10000, 64]⟩

abbrev nBuf : Space → Nat
  | .hbm => 31
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S64x32, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S1x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S1x64, .f32⟩
  | .hbm, ⟨29, _⟩ => ⟨S1x64, .f32⟩
  | .hbm, ⟨30, _⟩ => ⟨S50000x64, .f32⟩
  | .local _ .vmem, ⟨0, _⟩ => ⟨S16000x32, .f32⟩
  | .local _ .vmem, ⟨1, _⟩ => ⟨S16000x32, .f32⟩
  | .local _ .vmem, ⟨2, _⟩ => ⟨S16000x64, .f32⟩
  | .local _ .vmem, ⟨3, _⟩ => ⟨S16000x64, .f32⟩
  | .local _ .vmem, ⟨4, _⟩ => ⟨S64x32, .f32⟩
  | .local _ .vmem, ⟨5, _⟩ => ⟨S1x64, .f32⟩
  | .local _ .vmem, ⟨6, _⟩ => ⟨S16000x64, .f32⟩
  | .local _ .vmem, ⟨7, _⟩ => ⟨S16000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S16000x32_S16000x32_0_0 : ∀ a, (![0, 0] : Fin 2 → Nat) a + S16000x32.size a ≤ S16000x32.size a
  h_S16000x32 : 0 < S16000x32.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  dot_S16000x32_S32x64_S16000x64_1_0_0_1_n_n_wf : DotDims.WF S16000x32 S32x64 S16000x64 [1] [0] [0] [1] [] []
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S800000x32.size a
  hwx0_0 : ∀ i : grid0.Coords, EltTy.bits .f32 = 32 ∨ (Rect.block (s := S800000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S800000x64.size a
  hwx0_1 : ∀ i : grid0.Coords, EltTy.bits .f32 = 32 ∨ (Rect.block (s := S800000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x64.size a ≤ S800000x64.size a
  hwx0_4 : ∀ i : grid0.Coords, EltTy.bits .f32 = 32 ∨ (Rect.block (s := S800000x64) S16000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S50000x64.size a
  hwx1_6 : ∀ i : grid1.Coords, EltTy.bits .f32 = 32 ∨ (Rect.block (s := S50000x64) S10000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg2) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S16000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S64x32 : Shape := ⟨2, ![64, 32]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S32x64 : Shape := ⟨2, ![32, 64]⟩
abbrev S800000x64 : Shape := ⟨2, ![800000, 64]⟩
abbrev S1x64 : Shape := ⟨2, ![1, 64]⟩
abbrev S_ : Shape := ⟨0, ![]⟩
abbrev S800000x1 : Shape := ⟨2, ![800000, 1]⟩

abbrev nBuf : Space → Nat
  | .hbm => 54
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S64x32, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S32x64, .f32⟩
  | .hbm, ⟨14, _⟩ => ⟨S800000x64, .f32⟩
  | .hbm, ⟨15, _⟩ => ⟨S1x64, .f32⟩
  | .hbm, ⟨16, _⟩ => ⟨S800000x64, .f32⟩
  | .hbm, ⟨17, _⟩ => ⟨S800000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x64, .f32⟩
  | .hbm, ⟨28, _⟩ => ⟨S_, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S64x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S64x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x32_S32x64_1_0 : S64x32.Transposes [1, 0] S32x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  transposes_S64x64_S64x64_1_0 : S64x64.Transposes [1, 0] S64x64
  bcast_S1x64_S50000x64_0_1 : S1x64.BroadcastsInDim S50000x64 (![0, 1] : Fin 2 → Fin S50000x64.rank)
  dot_S800000x32_S32x64_S800000x64_1_0_0_1_n_n_wf : DotDims.WF S800000x32 S32x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The two row-wise maps of a graph-convolution layer with edge features, on the extended reals, for any number of rows.

    * An edge's message: row `p` of the gathered node features plus the affine image of the edge's own features,
      clipped below at zero — at channel `q`:  max (gx(p,q) + (∑ₖ ea(p,k) · We(q,k) + be(0,q)), 0).
    * A node's update: two affine layers with a clip at zero between them, applied to the node's own features plus what
      its incoming edges summed to — at channel `q`:
        ∑ₖ max (∑ₖ' (x(p,k') + agg(p,k')) · W1(k,k') + b1(0,k), 0) · W2(q,k) + b2(0,q).

  Both read only row `p` of the arrays that have `n` rows, so a block of rows of the result is the same map of the
  same block of rows of the operands (`edgeRow_rows`, `nodeRow_rows`): that is all a row-tiled evaluation needs.
-/
import Idealize.ShloMosaic.PureOps.Ideal.Laws
import Idealize.ShloMosaic.Lib.ValueIdx

noncomputable section

namespace Cert.GraphConv

open Idealize.ShloMosaic Idealize.ShloMosaic.ValueIdx

/-- An `a × b` matrix of extended reals. -/
abbrev Mat (a b : Nat) : Type := FVec Ideal ⟨2, ![a, b]⟩ .f32

/-- The value of the all-zero word. -/
abbrev zeroWord : Ideal .f32 := Ideal.ofBits .f32 0x00000000#32

/-- The word of the float 1.0 is the real number 1. -/
theorem ofBits_one : Ideal.ofBits .f32 0x3F800000#32 = 1 := by
  simp [Ideal.ofBits, Ideal.ieee, -EReal.coe_mul]; norm_num

/-! ## An edge's message -/

/-- The message of edge `p` at channel `q`. -/
def edgeRow {n : Nat} (ea : Mat n 32) (gx : Mat n 64) (We : Mat 64 32) (be : Mat 1 64) (p : Fin n) (q : Fin 64) : Ideal .f32 :=
  max (gx (ix2 p q) + ((∑ k : Fin 32, ea (ix2 p k) * We (ix2 q k)) + be (ix2 0 q))) zeroWord

/-- All messages, as one array. -/
def edgeOut {n : Nat} (ea : Mat n 32) (gx : Mat n 64) (We : Mat 64 32) (be : Mat 1 64) : Mat n 64 :=
  fun i => edgeRow ea gx We be (i 0) (i 1)

theorem edgeOut_apply {n : Nat} (ea : Mat n 32) (gx : Mat n 64) (We : Mat 64 32) (be : Mat 1 64) (p : Fin n) (q : Fin 64) :
    edgeOut ea gx We be (ix2 p q) = edgeRow ea gx We be p q := rfl

/-- Rows `p` of one pair of operands and `p'` of another agree: then so do the messages. -/
theorem edgeRow_rows {n n' : Nat} (ea : Mat n 32) (gx : Mat n 64) (ea' : Mat n' 32) (gx' : Mat n' 64) (We : Mat 64 32) (be : Mat 1 64)
    (p : Fin n) (p' : Fin n') (hea : ∀ k : Fin 32, ea (ix2 p k) = ea' (ix2 p' k)) (hgx : ∀ q : Fin 64, gx (ix2 p q) = gx' (ix2 p' q))
    (q : Fin 64) : edgeRow ea gx We be p q = edgeRow ea' gx' We be p' q := by
  unfold edgeRow
  rw [hgx q, Finset.sum_congr rfl fun k _ => congrArg (· * We (ix2 q k)) (hea k)]

/-! ## A node's update -/

/-- The hidden layer of node `p` at channel `k`. -/
def hiddenRow {n : Nat} (x agg : Mat n 64) (W1 : Mat 64 64) (b1 : Mat 1 64) (p : Fin n) (k : Fin 64) : Ideal .f32 :=
  max ((∑ k' : Fin 64, (x (ix2 p k') + agg (ix2 p k')) * W1 (ix2 k k')) + b1 (ix2 0 k)) zeroWord

/-- The update of node `p` at channel `q`. -/
def nodeRow {n : Nat} (x agg : Mat n 64) (W1 : Mat 64 64) (b1 : Mat 1 64) (W2 : Mat 64 64) (b2 : Mat 1 64) (p : Fin n) (q : Fin 64) :
    Ideal .f32 :=
  (∑ k : Fin 64, hiddenRow x agg W1 b1 p k * W2 (ix2 q k)) + b2 (ix2 0 q)

/-- All updates, as one array. -/
def nodeOut {n : Nat} (x agg : Mat n 64) (W1 : Mat 64 64) (b1 : Mat 1 64) (W2 : Mat 64 64) (b2 : Mat 1 64) : Mat n 64 :=
  fun i => nodeRow x agg W1 b1 W2 b2 (i 0) (i 1)

theorem nodeOut_apply {n : Nat} (x agg : Mat n 64) (W1 : Mat 64 64) (b1 : Mat 1 64) (W2 : Mat 64 64) (b2 : Mat 1 64) (p : Fin n) (q : Fin 64) :
    nodeOut x agg W1 b1 W2 b2 (ix2 p q) = nodeRow x agg W1 b1 W2 b2 p q := rfl

/-- Rows `p` of one pair of operands and `p'` of another agree: then so do the updates. -/
theorem nodeRow_rows {n n' : Nat} (x agg : Mat n 64) (x' agg' : Mat n' 64) (W1 : Mat 64 64) (b1 : Mat 1 64) (W2 : Mat 64 64) (b2 : Mat 1 64)
    (p : Fin n) (p' : Fin n') (hx : ∀ k : Fin 64, x (ix2 p k) = x' (ix2 p' k)) (hagg : ∀ k : Fin 64, agg (ix2 p k) = agg' (ix2 p' k))
    (q : Fin 64) : nodeRow x agg W1 b1 W2 b2 p q = nodeRow x' agg' W1 b1 W2 b2 p' q := by
  unfold nodeRow hiddenRow
  simp only [hx, hagg]

end Cert.GraphConv

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibRowVectors.lean ====
/-
  A few layout operations on rank-2 vectors, read at an element, for any sizes and any element type.

    * the transpose of an `[A, B]` vector by the permutation `[1, 0]`, at `(p, q)`: the vector at `(q, p)`;
    * a row vector `[1, B]` copied into every row of `[A, B]`, at `(p, q)`: the row at `(0, q)` — in both spellings, the
      vector broadcast and the `broadcast_in_dim` along the axes `[0, 1]`;
    * a length-`B` vector made a row `[1, B]`, at `(u, q)`: the vector at `q` — in both spellings, the shape cast and the
      `broadcast_in_dim` along the axis `[1]`;
    * a scalar copied to every element of any shape: the scalar.
-/
import Idealize.ShloMosaic.Lib.ValueIdx
import Idealize.ShloMosaic.Lib.Pipeline.Value

noncomputable section

namespace Cert.Lib.RowVectors

open Idealize.ShloMosaic Idealize.ShloMosaic.ValueIdx

variable {A B : Nat} {α : Type}

/-- The transpose that swaps the two axes reads, at `(p, q)`, its operand at `(q, p)`. -/
theorem transpose_swap_apply (v : (⟨2, ![A, B]⟩ : Shape).Idx → α) (h : (⟨2, ![A, B]⟩ : Shape).Transposes [1, 0] ⟨2, ![B, A]⟩)
    (p : Fin B) (q : Fin A) : transpose ⟨2, ![B, A]⟩ [1, 0] v h (ix2 p q) = v (ix2 q p) := by
  refine transpose_apply [1, 0] v h (ix2 p q) (ix2 q p) fun b => ?_
  match b with
  | ⟨0, _⟩ => rfl
  | ⟨1, _⟩ => rfl

/-- A row copied into every row by a vector broadcast reads, at `(p, q)`, the row at `(0, q)`. -/
theorem rowBroadcast_apply (v : (⟨2, ![1, B]⟩ : Shape).Idx → α) (h : (⟨2, ![1, B]⟩ : Shape).Broadcasts ⟨2, ![A, B]⟩)
    (hB : B ≠ 1) (p : Fin A) (q : Fin B) : broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- A row copied into every row by a `broadcast_in_dim` along both axes reads, at `(p, q)`, the row at `(0, q)`. -/
theorem rowBroadcastInDim_apply (v : (⟨2, ![1, B]⟩ : Shape).Idx → α)
    (h : (⟨2, ![1, B]⟩ : Shape).BroadcastsInDim ⟨2, ![A, B]⟩ (![0, 1] : Fin 2 → Fin 2))
    (hB : B ≠ 1) (p : Fin A) (q : Fin B) : broadcastInDim ⟨2, ![A, B]⟩ (![0, 1] : Fin 2 → Fin 2) h v (ix2 p q) = v (ix2 0 q) := by
  refine broadcastInDim_apply (![0, 1] : Fin 2 → Fin 2) h v (ix2 p q) (ix2 0 q) fun a => ?_
  match a with
  | ⟨0, _⟩ => exact (if_pos rfl).symm
  | ⟨1, _⟩ => exact (if_neg hB).symm

/-- A vector made a row by a `broadcast_in_dim` along axis 1 reads, at `(u, q)`, the vector at `q`. -/
theorem rowOfVectorInDim_apply (v : (⟨1, ![B]⟩ : Shape).Idx → α)
    (h : (⟨1, ![B]⟩ : Shape).BroadcastsInDim ⟨2, ![1, B]⟩ (![1] : Fin 1 → Fin 2))
    (hB : B ≠ 1) (u : Fin 1) (q : Fin B) : broadcastInDim ⟨2, ![1, B]⟩ (![1] : Fin 1 → Fin 2) h v (ix2 u q) = v (ix1 q) := by
  refine broadcastInDim_apply (![1] : Fin 1 → Fin 2) h v (ix2 u q) (ix1 q) fun a => ?_
  match a with
  | ⟨0, _⟩ => exact (if_neg hB).symm

/-- A vector made a row by a shape cast reads, at `(u, q)`, the vector at `q`. -/
theorem rowOfVectorCast_apply (v : (⟨1, ![B]⟩ : Shape).Idx → α) (h : (⟨1, ![B]⟩ : Shape).ShapeCasts ⟨2, ![1, B]⟩)
    (u : Fin 1) (q : Fin B) : shapeCast ⟨2, ![1, B]⟩ v h (ix2 u q) = v (ix1 q) := by
  refine shapeCast_apply v h (ix2 u q) (ix1 q) ?_
  rw [Shape.rowMajor_val_one, Shape.rowMajor_val_two]
  have hu : u.val = 0 := by omega
  show q.val = u.val * B + q.val
  rw [hu]; omega

/-- A scalar copied to every element reads the scalar. -/
theorem scalarInDim_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply (![] : Fin 0 → Fin t.rank) h v j ix0 fun a => a.elim0

end Cert.Lib.RowVectors

end
-- ==== Proof.KernelBodies.lean ====
/-
  What each of the two kernel bodies stores, as a function of the blocks it loads, on the extended reals.

  The first body loads a block of 16000 edges' features, the same rows of the gathered node features, the edge weight
  matrix and the edge bias row, and stores the edges' messages: the product of the edge features with the TRANSPOSED weight
  matrix is the sum over the 32 edge channels, the bias row is copied to every row, and the narrowing of the two operands
  of the product to a shorter float format does nothing to an extended real.

  The second body loads a block of 10000 nodes' features, the same rows of the summed messages, and the two layers' weights
  and bias rows, and stores the nodes' updates: two such products, each against a transposed weight matrix, with a clip at
  zero between them.
-/
import proofs.«173156_j64707977282153_1_alg».proof.Proof.Gen.KernelIdeal.Skeleton
import proofs.«173156_j64707977282153_1_alg».proof.Proof.Spec
import proofs.«173156_j64707977282153_1_alg».proof.Proof.LibRowwise
import proofs.«173156_j64707977282153_1_alg».proof.Proof.LibRowVectors

noncomputable section

namespace Cert.KernelIdeal.Bodies

open Idealize.ShloMosaic Idealize.ShloMosaic.ValueIdx Cert.KernelIdeal Cert.KernelIdeal.Gen
open Cert.GraphConv Cert.Lib.Rowwise Cert.Lib.RowVectors

/-- The product of an `[M, K]` by a `[K, N]` vector into the zero word, under the name a kernel body prints it by. -/
theorem product_apply {M K N : Nat} {φ₁ φ₂ : FTy} (prec : Option ContractPrecision) (a : FVec Ideal ⟨2, ![M, K]⟩ φ₁)
    (b : FVec Ideal ⟨2, ![K, N]⟩ φ₂) (p : Fin M) (q : Fin N) :
    matmul (DotDims.plain M K N) prec a b (constant ⟨2, ![M, N]⟩ .f32 0x00000000#32) (ix2 p q) = ∑ k : Fin K, a (ix2 p k) * b (ix2 k q) :=
  plain_matmul_zero_apply prec a b p q

/-- The first body's stored value is the messages of its block of edges. -/
theorem embed_payload (x0 : Vec Ideal S16000x32 .f32) (x2 : Vec Ideal S64x32 .f32) (x6 : Vec Ideal S1x64 .f32)
    (x10 : Vec Ideal S16000x64 .f32) : k0_pay1 (F := Ideal) x0 x2 x6 x10 = edgeOut x0 x10 x2 x6 := by
  funext j
  obtain ⟨p, q, rfl⟩ : ∃ (p : Fin 16000) (q : Fin 64), j = ix2 p q := ⟨j 0, j 1, eq_ix2 j⟩
  rw [edgeOut_apply]
  unfold k0_pay1 edgeRow
  dsimp only
  rw [maximumf_apply, addf_apply, addf_apply, broadcast_apply, shapeCast_self, shapeCast_self,
    eq_plain dot_S16000x32_S32x64_S16000x64_1_0_0_1_n_n rfl rfl rfl rfl rfl rfl, product_apply,
    rowBroadcast_apply _ _ (by decide)]
  refine congrArg (fun s => max (x10 (ix2 p q) + (s + x6 (ix2 0 q))) zeroWord) (Finset.sum_congr rfl fun k _ => ?_)
  refine congrArg (x0 (ix2 p k) * ·) ?_
  exact transpose_swap_apply _ _ k q

/-- The second body's stored value is the updates of its block of nodes. -/
theorem update_payload (v0 v1 : Vec Ideal S10000x64 .f32) (v5 : Vec Ideal S64x64 .f32) (v9 : Vec Ideal S1x64 .f32)
    (v16 : Vec Ideal S64x64 .f32) (v20 : Vec Ideal S1x64 .f32) :
    k1_pay1 (F := Ideal) v0 v1 v5 v9 v16 v20 = nodeOut v0 v1 v5 v9 v16 v20 := by
  funext j
  obtain ⟨p, q, rfl⟩ : ∃ (p : Fin 10000) (q : Fin 64), j = ix2 p q := ⟨j 0, j 1, eq_ix2 j⟩
  rw [nodeOut_apply]
  unfold k1_pay1 nodeRow
  dsimp only
  simp only [shapeCast_self]
  rw [addf_apply, eq_plain dot_S10000x64_S64x64_S10000x64_1_0_0_1_n_n rfl rfl rfl rfl rfl rfl, product_apply,
    rowBroadcast_apply _ _ (by decide)]
  refine congrArg (fun s => s + v20 (ix2 0 q)) (Finset.sum_congr rfl fun k _ => ?_)
  refine congrArg₂ (· * ·) ?_ (transpose_swap_apply _ _ k q)
  unfold hiddenRow
  rw [truncf_apply, maximumf_apply, addf_apply, broadcast_apply, product_apply, rowBroadcast_apply _ _ (by decide)]
  refine congrArg (fun s => max (s + v9 (ix2 0 k)) zeroWord) (Finset.sum_congr rfl fun k' _ => ?_)
  refine congrArg₂ (· * ·) ?_ (transpose_swap_apply _ _ k' k)
  rw [truncf_apply, addf_apply]

end Cert.KernelIdeal.Bodies

end
-- ==== Proof.MessagesRegion.lean ====
/-
  The first kernel region: after it has run, its output array holds every edge's message.

  The region walks the 800000 edges in 50 blocks of 16000 rows. At block `t` it stages rows `16000·t … 16000·t + 15999`
  of the edge features and of the gathered node features, the whole edge weight matrix and the whole bias row, and
  writes the body's result back to the same rows of the output. A message reads only its own row, so the block the body
  computes is the same rows of the array of all messages; the 50 blocks tile the output, so the output IS that array.
  Everything is stated at arbitrary contents `V` of the buffers when the region is entered.
-/
import proofs.«173156_j64707977282153_1_alg».proof.Proof.Gen.KernelIdeal.Frame
import proofs.«173156_j64707977282153_1_alg».proof.Proof.KernelBodies
import Idealize.ShloMosaic.Lib.Pipeline.Value

set_option maxRecDepth 16384

noncomputable section

namespace Cert.KernelIdeal.Messages

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.GraphConv

variable (V : (c : Dev nD) → (b : Ref sig .tc) → Buf (Elt Ideal) ((c : Thread nD τ).loc b))

/-! ## The blocks and the arrays, by their literal types -/

abbrev eaBlk (c : Dev nD) (t : Fin cfg0.N) : Vec Ideal S16000x32 .f32 := iblk0 V c 0 t
abbrev gxBlk (c : Dev nD) (t : Fin cfg0.N) : Vec Ideal S16000x64 .f32 := iblk0 V c 1 t
abbrev weBlk (c : Dev nD) (t : Fin cfg0.N) : Vec Ideal S64x32 .f32 := iblk0 V c 2 t
abbrev beBlk (c : Dev nD) (t : Fin cfg0.N) : Vec Ideal S1x64 .f32 := iblk0 V c 3 t
abbrev eaArr (c : Dev nD) : Vec Ideal S800000x32 .f32 := V c main_arg2
abbrev gxArr (c : Dev nD) : Vec Ideal S800000x64 .f32 := V c main_v10
abbrev weArr (c : Dev nD) : Vec Ideal S64x32 .f32 := V c main_arg3
abbrev beArr (c : Dev nD) : Vec Ideal S1x64 .f32 := V c main_v11

/-- The array of all messages, of the arrays as the region finds them. -/
abbrev messages (c : Dev nD) : Vec Ideal S800000x64 .f32 := edgeOut (eaArr V c) (gxArr V c) (weArr V c) (beArr V c)

/-! ## Which block each window is on at point `t` -/

theorem origin : (![0, 0] : Fin 2 → Nat) = fun _ => 0 := funext fun a => by fin_cases a <;> rfl

/-- The three row-tiled windows are on block `t` of the rows; the weight matrix and the bias row are whole. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of block `t` is row `16000·t + p` of the array. -/
def rowOf (t : Fin cfg0.N) (p : Fin 16000) : Fin 800000 :=
  ⟨t.val * 16000 + p.val, by
    have ht : t.val < grid0.N := t.isLt
    rw [N_0] at ht
    have := p.isLt
    omega⟩

/-! ## The staged blocks, read off the arrays -/

theorem eaBlk_apply (c : Dev nD) (t : Fin cfg0.N) (p : Fin 16000) (k : Fin 32) :
    eaBlk V c t (ix2 p k) = eaArr V c (ix2 (rowOf t p) k) := by
  obtain ⟨e0, e1, -⟩ := block_indices t
  show V c main_arg2 (((cfg0.win 0).blk t).view.emb (ix2 p k)) = V c main_arg2 (ix2 (rowOf t p) k)
  refine congrArg (V c main_arg2) (funext fun a => Fin.ext ?_)
  match a with
  | ⟨0, _⟩ => show win0_0.index t (0 : Fin 2) * 16000 + 1 * p.val = t.val * 16000 + p.val; omega
  | ⟨1, _⟩ => show win0_0.index t (1 : Fin 2) * 32 + 1 * k.val = k.val; omega

theorem gxBlk_apply (c : Dev nD) (t : Fin cfg0.N) (p : Fin 16000) (q : Fin 64) :
    gxBlk V c t (ix2 p q) = gxArr V c (ix2 (rowOf t p) q) := by
  obtain ⟨-, -, e0, e1, -⟩ := block_indices t
  show V c main_v10 (((cfg0.win 1).blk t).view.emb (ix2 p q)) = V c main_v10 (ix2 (rowOf t p) q)
  refine congrArg (V c main_v10) (funext fun a => Fin.ext ?_)
  match a with
  | ⟨0, _⟩ => show win0_1.index t (0 : Fin 2) * 16000 + 1 * p.val = t.val * 16000 + p.val; omega
  | ⟨1, _⟩ => show win0_1.index t (1 : Fin 2) * 64 + 1 * q.val = q.val; omega

theorem weBlk_eq (c : Dev nD) (t : Fin cfg0.N) : weBlk V c t = weArr V c := by
  obtain ⟨-, -, -, -, e0, e1, -⟩ := block_indices t
  funext y
  show V c main_arg3 (((cfg0.win 2).blk t).view.emb y) = V c main_arg3 y
  refine congrArg (V c main_arg3) (funext fun a => Fin.ext ?_)
  match a with
  | ⟨0, _⟩ => show win0_2.index t (0 : Fin 2) * 64 + 1 * (y 0).val = (y 0).val; omega
  | ⟨1, _⟩ => show win0_2.index t (1 : Fin 2) * 32 + 1 * (y 1).val = (y 1).val; omega

theorem beBlk_eq (c : Dev nD) (t : Fin cfg0.N) : beBlk V c t = beArr V c := by
  obtain ⟨-, -, -, -, -, -, e0, e1, -⟩ := block_indices t
  funext y
  show V c main_v11 (((cfg0.win 3).blk t).view.emb y) = V c main_v11 y
  refine congrArg (V c main_v11) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Element `(p, q)` of the output's block `t` is element `(16000·t + p, q)` of the output array. -/
theorem outBlk_emb (t : Fin cfg0.N) (p : Fin 16000) (q : Fin 64) :
    ((cfg0.win 4).blk t).view.emb (ix2 p q) = ix2 (rowOf t p) q := by
  obtain ⟨-, -, -, -, -, -, -, -, e0, e1⟩ := block_indices t
  refine funext fun a => Fin.ext ?_
  match a with
  | ⟨0, _⟩ => show win0_4.index t (0 : Fin 2) * 16000 + 1 * p.val = t.val * 16000 + p.val; omega
  | ⟨1, _⟩ => show win0_4.index t (1 : Fin 2) * 64 + 1 * q.val = q.val; omega

/-! ## What point `t` writes back -/

/-- What point `t` writes back is block `t` of the array of all messages. -/
theorem flushed_eq (c : Dev nD) (t : Fin cfg0.N) :
    (dat0 V c).flushed 4 t = ((cfg0.win 4).blk t).view.read (Elt Ideal) (messages V c) := by
  show (cfg0.win 4).cut (grid0.coords t) ((dat0 V c).after 4 t) = _
  rw [after0_4]
  unfold out0_4
  rw [View.canon_unit_zero origin]
  simp only [View.ld_unit_zero (S := S16000x32) origin, View.ld_unit_zero (S := S16000x64) origin,
    View.ld_unit_zero (S := S64x32) origin, View.ld_unit_zero (S := S1x64) origin]
  rw [embed_payload]
  funext j
  obtain ⟨p, q, rfl⟩ : ∃ (p : Fin 16000) (q : Fin 64), j = ix2 p q := ⟨j 0, j 1, eq_ix2 j⟩
  show edgeOut (eaBlk V c t) (gxBlk V c t) (weBlk V c t) (beBlk V c t) (ix2 p q)
    = messages V c (((cfg0.win 4).blk t).view.emb (ix2 p q))
  rw [outBlk_emb, weBlk_eq, beBlk_eq]
  show edgeRow (eaBlk V c t) (gxBlk V c t) (weArr V c) (beArr V c) p q
    = edgeRow (eaArr V c) (gxArr V c) (weArr V c) (beArr V c) (rowOf t p) q
  exact edgeRow_rows _ _ _ _ _ _ p (rowOf t p) (eaBlk_apply V c t p) (gxBlk_apply V c t p) q

/-! ## The blocks tile the output -/

theorem mem_outBlk (t : Fin cfg0.N) (i : S800000x64.Idx) :
    i ∈ ((cfg0.win 4).blk t).view.set ↔ ∀ a : Fin 2, win0_4.index t a * S16000x64.size a ≤ (i a).val
      ∧ (i a).val < win0_4.index t a * S16000x64.size a + S16000x64.size a := by
  show i ∈ ((View.whole main_v12).slice (win0_4.rect t)).set ↔ _
  rw [View.set_slice_whole, Rect.mem_set_unit]
  exact Iff.rfl

/-- Row `r` of the output is in the block of point `r / 16000`. -/
theorem covered (i : S800000x64.Idx) :
    ∃ t : Fin cfg0.N, (cfg0.win 4).flush t = true ∧ i ∈ ((cfg0.win 4).blk t).view.set := by
  have h0 : (i 0).val < 800000 := (i 0).isLt
  have h1 : (i 1).val < 64 := (i 1).isLt
  let t : Fin cfg0.N := ⟨(i 0).val / 16000, by have := N_0; show (i 0).val / 16000 < grid0.N; omega⟩
  obtain ⟨-, -, -, -, -, -, -, -, e0, e1⟩ := block_indices t
  have ht : t.val = (i 0).val / 16000 := rfl
  refine ⟨t, flush0_4 t, ?_⟩
  rw [mem_outBlk]
  intro a
  match a with
  | ⟨0, _⟩ => show win0_4.index t (0 : Fin 2) * 16000 ≤ (i 0).val ∧ (i 0).val < win0_4.index t (0 : Fin 2) * 16000 + 16000; omega
  | ⟨1, _⟩ => show win0_4.index t (1 : Fin 2) * 64 ≤ (i 1).val ∧ (i 1).val < win0_4.index t (1 : Fin 2) * 64 + 64; omega

/-! ## The output array after the region -/

/-- After the region the output array holds every edge's message. -/
theorem output_eq (c : Dev nD) : (dat0 V c).arrAt 4 cfg0.N = messages V c :=
  (dat0 V c).arrAt_eq_of_cover 4 (messages V c) (fun t _ => flushed_eq V c t) covered

end Cert.KernelIdeal.Messages

end
-- ==== Proof.UpdatesRegion.lean ====
/-
  The second kernel region: after it has run, its output array holds every node's update.

  The region walks the 50000 nodes in 5 blocks of 10000 rows. At block `t` it stages rows `10000·t … 10000·t + 9999` of
  the node features and of the summed messages, the two layers' whole weight matrices and bias rows, and writes the
  body's result back to the same rows of the output. An update reads only its own row, so the block the body computes
  is the same rows of the array of all updates; the 5 blocks tile the output, so the output IS that array. Everything is
  stated at arbitrary contents `V` of the buffers when the region is entered.
-/
import proofs.«173156_j64707977282153_1_alg».proof.Proof.Gen.KernelIdeal.Frame
import proofs.«173156_j64707977282153_1_alg».proof.Proof.KernelBodies
import Idealize.ShloMosaic.Lib.Pipeline.Value

set_option maxRecDepth 16384

noncomputable section

namespace Cert.KernelIdeal.Updates

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.GraphConv

variable (V : (c : Dev nD) → (b : Ref sig .tc) → Buf (Elt Ideal) ((c : Thread nD τ).loc b))

/-! ## The blocks and the arrays, by their literal types -/

abbrev xBlk (c : Dev nD) (t : Fin cfg1.N) : Vec Ideal S10000x64 .f32 := iblk1 V c 0 t
abbrev aggBlk (c : Dev nD) (t : Fin cfg1.N) : Vec Ideal S10000x64 .f32 := iblk1 V c 1 t
abbrev w1Blk (c : Dev nD) (t : Fin cfg1.N) : Vec Ideal S64x64 .f32 := iblk1 V c 2 t
abbrev b1Blk (c : Dev nD) (t : Fin cfg1.N) : Vec Ideal S1x64 .f32 := iblk1 V c 3 t
abbrev w2Blk (c : Dev nD) (t : Fin cfg1.N) : Vec Ideal S64x64 .f32 := iblk1 V c 4 t
abbrev b2Blk (c : Dev nD) (t : Fin cfg1.N) : Vec Ideal S1x64 .f32 := iblk1 V c 5 t
abbrev xArr (c : Dev nD) : Vec Ideal S50000x64 .f32 := V c main_arg0
abbrev aggArr (c : Dev nD) : Vec Ideal S50000x64 .f32 := V c main_v15
abbrev w1Arr (c : Dev nD) : Vec Ideal S64x64 .f32 := V c main_arg5
abbrev b1Arr (c : Dev nD) : Vec Ideal S1x64 .f32 := V c main_v16
abbrev w2Arr (c : Dev nD) : Vec Ideal S64x64 .f32 := V c main_arg7
abbrev b2Arr (c : Dev nD) : Vec Ideal S1x64 .f32 := V c main_v17

/-- The array of all updates, of the arrays as the region finds them. -/
abbrev updates (c : Dev nD) : Vec Ideal S50000x64 .f32 :=
  nodeOut (xArr V c) (aggArr V c) (w1Arr V c) (b1Arr V c) (w2Arr V c) (b2Arr V c)

/-! ## Which block each window is on at point `t` -/

theorem origin : (![0, 0] : Fin 2 → Nat) = fun _ => 0 := funext fun a => by fin_cases a <;> rfl

/-- The three row-tiled windows are on block `t` of the rows; the weight matrices and the bias rows are whole. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` is row `10000·t + p` of the array. -/
def rowOf (t : Fin cfg1.N) (p : Fin 10000) : Fin 50000 :=
  ⟨t.val * 10000 + p.val, by
    have ht : t.val < grid1.N := t.isLt
    rw [N_1] at ht
    have := p.isLt
    omega⟩

/-! ## The staged blocks, read off the arrays -/

theorem xBlk_apply (c : Dev nD) (t : Fin cfg1.N) (p : Fin 10000) (k : Fin 64) :
    xBlk V c t (ix2 p k) = xArr V c (ix2 (rowOf t p) k) := by
  obtain ⟨e0, e1, -⟩ := block_indices t
  show V c main_arg0 (((cfg1.win 0).blk t).view.emb (ix2 p k)) = V c main_arg0 (ix2 (rowOf t p) k)
  refine congrArg (V c main_arg0) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

theorem aggBlk_apply (c : Dev nD) (t : Fin cfg1.N) (p : Fin 10000) (k : Fin 64) :
    aggBlk V c t (ix2 p k) = aggArr V c (ix2 (rowOf t p) k) := by
  obtain ⟨-, -, e0, e1, -⟩ := block_indices t
  show V c main_v15 (((cfg1.win 1).blk t).view.emb (ix2 p k)) = V c main_v15 (ix2 (rowOf t p) k)
  refine congrArg (V c main_v15) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * k.val = k.val; omega

theorem w1Blk_eq (c : Dev nD) (t : Fin cfg1.N) : w1Blk V c t = w1Arr V c := by
  obtain ⟨-, -, -, -, e0, e1, -⟩ := block_indices t
  funext y
  show V c main_arg5 (((cfg1.win 2).blk t).view.emb y) = V c main_arg5 y
  refine congrArg (V c main_arg5) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem b1Blk_eq (c : Dev nD) (t : Fin cfg1.N) : b1Blk V c t = b1Arr V c := by
  obtain ⟨-, -, -, -, -, -, e0, e1, -⟩ := block_indices t
  funext y
  show V c main_v16 (((cfg1.win 3).blk t).view.emb y) = V c main_v16 y
  refine congrArg (V c main_v16) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem w2Blk_eq (c : Dev nD) (t : Fin cfg1.N) : w2Blk V c t = w2Arr V c := by
  obtain ⟨-, -, -, -, -, -, -, -, e0, e1, -⟩ := block_indices t
  funext y
  show V c main_arg7 (((cfg1.win 4).blk t).view.emb y) = V c main_arg7 y
  refine congrArg (V c main_arg7) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem b2Blk_eq (c : Dev nD) (t : Fin cfg1.N) : b2Blk V c t = b2Arr V c := by
  obtain ⟨-, -, -, -, -, -, -, -, -, -, e0, e1, -⟩ := block_indices t
  funext y
  show V c main_v17 (((cfg1.win 5).blk t).view.emb y) = V c main_v17 y
  refine congrArg (V c main_v17) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Element `(p, q)` of the output's block `t` is element `(10000·t + p, q)` of the output array. -/
theorem outBlk_emb (t : Fin cfg1.N) (p : Fin 10000) (q : Fin 64) :
    ((cfg1.win 6).blk t).view.emb (ix2 p q) = ix2 (rowOf t p) q := by
  obtain ⟨-, -, -, -, -, -, -, -, -, -, -, -, e0, e1⟩ := block_indices t
  refine funext fun a => Fin.ext ?_
  match a with
  | ⟨0, _⟩ => show win1_6.index t (0 : Fin 2) * 10000 + 1 * p.val = t.val * 10000 + p.val; omega
  | ⟨1, _⟩ => show win1_6.index t (1 : Fin 2) * 64 + 1 * q.val = q.val; omega

/-! ## What point `t` writes back -/

/-- What point `t` writes back is block `t` of the array of all updates. -/
theorem flushed_eq (c : Dev nD) (t : Fin cfg1.N) :
    (dat1 V c).flushed 6 t = ((cfg1.win 6).blk t).view.read (Elt Ideal) (updates V c) := by
  show (cfg1.win 6).cut (grid1.coords t) ((dat1 V c).after 6 t) = _
  rw [after1_6]
  unfold out1_6
  rw [View.canon_unit_zero origin]
  simp only [View.ld_unit_zero (S := S10000x64) origin, View.ld_unit_zero (S := S64x64) origin,
    View.ld_unit_zero (S := S1x64) origin]
  rw [update_payload]
  funext j
  obtain ⟨p, q, rfl⟩ : ∃ (p : Fin 10000) (q : Fin 64), j = ix2 p q := ⟨j 0, j 1, eq_ix2 j⟩
  show nodeOut (xBlk V c t) (aggBlk V c t) (w1Blk V c t) (b1Blk V c t) (w2Blk V c t) (b2Blk V c t) (ix2 p q)
    = updates V c (((cfg1.win 6).blk t).view.emb (ix2 p q))
  rw [outBlk_emb, w1Blk_eq, b1Blk_eq, w2Blk_eq, b2Blk_eq]
  show nodeRow (xBlk V c t) (aggBlk V c t) (w1Arr V c) (b1Arr V c) (w2Arr V c) (b2Arr V c) p q
    = nodeRow (xArr V c) (aggArr V c) (w1Arr V c) (b1Arr V c) (w2Arr V c) (b2Arr V c) (rowOf t p) q
  exact nodeRow_rows _ _ _ _ _ _ _ _ p (rowOf t p) (xBlk_apply V c t p) (aggBlk_apply V c t p) q

/-! ## The blocks tile the output -/

theorem mem_outBlk (t : Fin cfg1.N) (i : S50000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v18).slice (win1_6.rect t)).set ↔ _
  rw [View.set_slice_whole, Rect.mem_set_unit]
  exact Iff.rfl

/-- Row `r` of the output is in the block of point `r / 10000`. -/
theorem covered (i : S50000x64.Idx) :
    ∃ t : Fin cfg1.N, (cfg1.win 6).flush t = true ∧ i ∈ ((cfg1.win 6).blk t).view.set := by
  have h0 : (i 0).val < 50000 := (i 0).isLt
  have h1 : (i 1).val < 64 := (i 1).isLt
  let t : Fin cfg1.N := ⟨(i 0).val / 10000, by have := N_1; show (i 0).val / 10000 < grid1.N; omega⟩
  obtain ⟨-, -, -, -, -, -, -, -, -, -, -, -, e0, e1⟩ := block_indices t
  have ht : t.val = (i 0).val / 10000 := rfl
  refine ⟨t, flush1_6 t, ?_⟩
  rw [mem_outBlk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-! ## The output array after the region -/

/-- After the region the output array holds every node's update. -/
theorem output_eq (c : Dev nD) : (dat1 V c).arrAt 6 cfg1.N = updates V c :=
  (dat1 V c).arrAt_eq_of_cover 6 (updates V c) (fun t _ => flushed_eq V c t) covered

end Cert.KernelIdeal.Updates

end
-- ==== Proof.KernelValue.lean ====
/-
  The result of the idealized kernel program as one term of its arguments.

  @main is four stretches: host operations that gather the source node's features for every edge (a negative row
  index wraps around once) and make the edge bias a row; the first kernel region, which leaves every edge's message;
  host operations that add each message into its destination node's row of a zero array and make the two layer
  biases rows; the second kernel region, which leaves every node's update. The buffer contents at each boundary are a
  fold through these stretches from the launch memory; read at the buffers the next stretch uses, the fold is the
  composition below.
-/
import proofs.«173156_j64707977282153_1_alg».proof.Proof.MessagesRegion
import proofs.«173156_j64707977282153_1_alg».proof.Proof.UpdatesRegion
import proofs.«173156_j64707977282153_1_alg».proof.Proof.KernelRun
import Idealize.ShloMosaic.Lib.StableHlo.Run

set_option maxRecDepth 16384

noncomputable section

namespace Cert.KernelIdeal.Value

open Idealize.ShloMosaic Idealize.ShloMosaic.TcCoe Idealize.ShloMosaic.ValueIdx Idealize.SL.Sem Idealize.ShloMosaic.StableHlo
open Cert.KernelIdeal Cert.KernelIdeal.Gen Cert.GraphConv

/-- The source row of every edge: row 0 of the edge index array, a negative entry raised by the number of nodes. -/
def sourceRows (ei : (⟨S2x800000, .i32⟩ : BufTy).Contents (Elt Ideal)) : (⟨S800000x1, .i32⟩ : BufTy).Contents (Elt Ideal) :=
  broadcastInDim S800000x1 ![0] bcast_S800000_S800000x1_0
    (select
      (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- The destination row of every edge: row 1 of the edge index array. -/
def destRows (ei : (⟨S2x800000, .i32⟩ : BufTy).Contents (Elt Ideal)) : (⟨S800000x1, .i32⟩ : BufTy).Contents (Elt Ideal) :=
  broadcastInDim S800000x1 ![0] bcast_S800000_S800000x1_0
    (shapeCast S800000 (extractStridedSlice S1x800000 ![1, 0] ei slices_S2x800000_S1x800000_1_0) shapeCasts_S1x800000_S800000)

/-- The layer as the kernel program computes it: the updates of the nodes from their own features and the messages of
    their incoming edges summed. -/
def result (x : (⟨S50000x64, .f32⟩ : BufTy).Contents (Elt Ideal)) (ei : (⟨S2x800000, .i32⟩ : BufTy).Contents (Elt Ideal))
    (ea : (⟨S800000x32, .f32⟩ : BufTy).Contents (Elt Ideal)) (we : (⟨S64x32, .f32⟩ : BufTy).Contents (Elt Ideal))
    (be : (⟨S64, .f32⟩ : BufTy).Contents (Elt Ideal)) (w1 : (⟨S64x64, .f32⟩ : BufTy).Contents (Elt Ideal))
    (b1 : (⟨S64, .f32⟩ : BufTy).Contents (Elt Ideal)) (w2 : (⟨S64x64, .f32⟩ : BufTy).Contents (Elt Ideal))
    (b2 : (⟨S64, .f32⟩ : BufTy).Contents (Elt Ideal)) : (⟨S50000x64, .f32⟩ : BufTy).Contents (Elt Ideal) :=
  nodeOut x
    (Host.scatterAdd scatter_S50000x64_S800000x1_S800000x64_1_0_0_1
      (broadcastInDim S50000x64 ![] bcast_S_S50000x64 (constant S_ .f32 0x00000000#32)) (destRows ei)
      (edgeOut ea (Host.gather gather_S50000x64_S800000x1_S800000x64_1_0_n_n_0_1_164 x (sourceRows ei)) we
        (shapeCast S1x64 be shapeCasts_S64_S1x64)))
    w1 (shapeCast S1x64 b1 shapeCasts_S64_S1x64) w2 (shapeCast S1x64 b2 shapeCasts_S64_S1x64)

variable (m : (ℓ : Loc nD τ sig) → Buf (Elt Ideal) ℓ) (ρ : Dev nD → PrngReg)

/-! ## The first region's entry: the launch memory after the first host stretch -/

theorem entry0_ea (c : Dev nD) : V1 m ρ c main_arg2 = m ((c : Thread nD τ).loc main_arg2) := by
  show StableHlo.after hostOps0 (W0 m ρ c) (Proc.devRef .tc main_arg2) = _
  after_results <;> rfl
theorem entry0_we (c : Dev nD) : V1 m ρ c main_arg3 = m ((c : Thread nD τ).loc main_arg3) := by
  show StableHlo.after hostOps0 (W0 m ρ c) (Proc.devRef .tc main_arg3) = _
  after_results <;> rfl
theorem entry0_gx (c : Dev nD) : V1 m ρ c main_v10
    = Host.gather gather_S50000x64_S800000x1_S800000x64_1_0_n_n_0_1_164 (m ((c : Thread nD τ).loc main_arg0))
        (sourceRows (m ((c : Thread nD τ).loc main_arg1))) := by
  show StableHlo.after hostOps0 (W0 m ρ c) (Proc.devRef .tc main_v10) = _
  after_results <;> rfl
theorem entry0_be (c : Dev nD) : V1 m ρ c main_v11 = shapeCast S1x64 (m ((c : Thread nD τ).loc main_arg4)) shapeCasts_S64_S1x64 := by
  show StableHlo.after hostOps0 (W0 m ρ c) (Proc.devRef .tc main_v11) = _
  after_results <;> rfl

/-- What the first host stretch leaves at a buffer the first region does not touch, for the second stretch to read. -/
theorem entry0_dest (c : Dev nD) : W1 m ρ c (Proc.devRef .tc main_v3)
    = shapeCast S800000 (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  after_results <;> rfl
theorem entry0_x (c : Dev nD) : W1 m ρ c (Proc.devRef .tc main_arg0) = m ((c : Thread nD τ).loc main_arg0) := by
  show StableHlo.after hostOps0 (W0 m ρ c) (Proc.devRef .tc main_arg0) = _
  after_results <;> rfl
theorem entry0_w1 (c : Dev nD) : W1 m ρ c (Proc.devRef .tc main_arg5) = m ((c : Thread nD τ).loc main_arg5) := by
  show StableHlo.after hostOps0 (W0 m ρ c) (Proc.devRef .tc main_arg5) = _
  after_results <;> rfl
theorem entry0_b1 (c : Dev nD) : W1 m ρ c (Proc.devRef .tc main_arg6) = m ((c : Thread nD τ).loc main_arg6) := by
  show StableHlo.after hostOps0 (W0 m ρ c) (Proc.devRef .tc main_arg6) = _
  after_results <;> rfl
theorem entry0_w2 (c : Dev nD) : W1 m ρ c (Proc.devRef .tc main_arg7) = m ((c : Thread nD τ).loc main_arg7) := by
  show StableHlo.after hostOps0 (W0 m ρ c) (Proc.devRef .tc main_arg7) = _
  after_results <;> rfl
theorem entry0_b2 (c : Dev nD) : W1 m ρ c (Proc.devRef .tc main_arg8) = m ((c : Thread nD τ).loc main_arg8) := by
  show StableHlo.after hostOps0 (W0 m ρ c) (Proc.devRef .tc main_arg8) = _
  after_results <;> rfl

/-! ## The first region's exit -/

/-- The first region leaves every edge's message, of the launch arguments. -/
theorem exit0_messages (c : Dev nD) : W2 m ρ c (Proc.devRef .tc main_v12)
    = edgeOut (m ((c : Thread nD τ).loc main_arg2))
        (Host.gather gather_S50000x64_S800000x1_S800000x64_1_0_n_n_0_1_164 (m ((c : Thread nD τ).loc main_arg0))
          (sourceRows (m ((c : Thread nD τ).loc main_arg1))))
        (m ((c : Thread nD τ).loc main_arg3)) (shapeCast S1x64 (m ((c : Thread nD τ).loc main_arg4)) shapeCasts_S64_S1x64) := by
  refine (W2_arr m ρ c 4).trans ((Messages.output_eq (V1 m ρ) c).trans ?_)
  show edgeOut (V1 m ρ c main_arg2) (V1 m ρ c main_v10) (V1 m ρ c main_arg3) (V1 m ρ c main_v11) = _
  rw [entry0_ea, entry0_gx, entry0_we, entry0_be]

/-! ## The second region's entry: the first region's exit after the second host stretch -/

theorem entry1_x (c : Dev nD) : V3 m ρ c main_arg0 = m ((c : Thread nD τ).loc main_arg0) := by
  show StableHlo.after hostOps1 (W2 m ρ c) (Proc.devRef .tc main_arg0) = _
  after_results
  exact (W2_of_ne m ρ c main_arg0 (by decide)).trans (entry0_x m ρ c)
theorem entry1_w1 (c : Dev nD) : V3 m ρ c main_arg5 = m ((c : Thread nD τ).loc main_arg5) := by
  show StableHlo.after hostOps1 (W2 m ρ c) (Proc.devRef .tc main_arg5) = _
  after_results
  exact (W2_of_ne m ρ c main_arg5 (by decide)).trans (entry0_w1 m ρ c)
theorem entry1_w2 (c : Dev nD) : V3 m ρ c main_arg7 = m ((c : Thread nD τ).loc main_arg7) := by
  show StableHlo.after hostOps1 (W2 m ρ c) (Proc.devRef .tc main_arg7) = _
  after_results
  exact (W2_of_ne m ρ c main_arg7 (by decide)).trans (entry0_w2 m ρ c)
theorem entry1_b1 (c : Dev nD) : V3 m ρ c main_v16 = shapeCast S1x64 (m ((c : Thread nD τ).loc main_arg6)) shapeCasts_S64_S1x64 := by
  show StableHlo.after hostOps1 (W2 m ρ c) (Proc.devRef .tc main_v16) = _
  after_results
  rw [W2_of_ne m ρ c main_arg6 (by decide), entry0_b1]
  rfl
theorem entry1_b2 (c : Dev nD) : V3 m ρ c main_v17 = shapeCast S1x64 (m ((c : Thread nD τ).loc main_arg8)) shapeCasts_S64_S1x64 := by
  show StableHlo.after hostOps1 (W2 m ρ c) (Proc.devRef .tc main_v17) = _
  after_results
  rw [W2_of_ne m ρ c main_arg8 (by decide), entry0_b2]
  rfl

/-- The messages summed into their destination rows, of the launch arguments. -/
theorem entry1_agg (c : Dev nD) : V3 m ρ c main_v15
    = Host.scatterAdd scatter_S50000x64_S800000x1_S800000x64_1_0_0_1
        (broadcastInDim S50000x64 ![] bcast_S_S50000x64 (constant S_ .f32 0x00000000#32)) (destRows (m ((c : Thread nD τ).loc main_arg1)))
        (edgeOut (m ((c : Thread nD τ).loc main_arg2))
          (Host.gather gather_S50000x64_S800000x1_S800000x64_1_0_n_n_0_1_164 (m ((c : Thread nD τ).loc main_arg0))
            (sourceRows (m ((c : Thread nD τ).loc main_arg1))))
          (m ((c : Thread nD τ).loc main_arg3)) (shapeCast S1x64 (m ((c : Thread nD τ).loc main_arg4)) shapeCasts_S64_S1x64)) := by
  show StableHlo.after hostOps1 (W2 m ρ c) (Proc.devRef .tc main_v15) = _
  after_results
  rw [W2_of_ne m ρ c main_v3 (by decide), entry0_dest, exit0_messages]
  rfl

/-! ## The second region's exit, and the run -/

/-- The result buffer at the last boundary is the layer of the launch arguments. -/
theorem result_eq (c : Dev nD) : W4 m ρ c (Proc.devRef .tc main_v18)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 6).trans ((Updates.output_eq (V3 m ρ) c).trans ?_)
  show nodeOut (V3 m ρ c main_arg0) (V3 m ρ c main_v15) (V3 m ρ c main_arg5) (V3 m ρ c main_v16) (V3 m ρ c main_arg7)
    (V3 m ρ c main_v17) = _
  rw [entry1_x, entry1_agg, entry1_w1, entry1_b1, entry1_w2, entry1_b2]
  rfl

/-- Every weakly fair execution of the idealized kernel program terminates with its result buffer at the layer of the
    launch arguments and the arguments unchanged. -/
theorem run : θ_run defs (onTc (τ := τ) (main (F := Ideal))) ⟨m, fun _ => 0, ρ⟩ (fun r => ∀ c : Dev nD,
      r.2.mem ((c.tc : Thread nD τ).loc main_v18)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Gen.run_result m ρ)

end Cert.KernelIdeal.Value

end
-- ==== Proof.ReferenceStages.lean ====
/-
  The reference's two dense stages are the same row-wise maps.

  The reference computes every edge's message in one piece: the product of all edge features with the transposed
  weight matrix (a sum over the 32 edge channels), the bias copied to every row (first made a row, then copied down), the
  gathered node features added, the clip at zero. It computes every node's update in one piece likewise, after
  multiplying the node features by the constant `1.0 + 0.0`: on the extended reals that factor is the number 1, and
  `1 · x = x` for every extended real `x`, infinite ones included, so the factor drops out with no condition on `x`.
-/
import proofs.«173156_j64707977282153_1_alg».proof.Proof.Gen.ReferenceIdeal
import proofs.«173156_j64707977282153_1_alg».proof.Proof.Spec
import proofs.«173156_j64707977282153_1_alg».proof.Proof.LibRowwise
import proofs.«173156_j64707977282153_1_alg».proof.Proof.LibRowVectors
import Idealize.ShloMosaic.Lib.StackMember

noncomputable section

namespace Cert.ReferenceIdeal.Stages

open Idealize.ShloMosaic Idealize.ShloMosaic.ValueIdx Idealize.ShloMosaic.StackMember
open Cert.ReferenceIdeal Cert.ReferenceIdeal.Gen Cert.GraphConv Cert.Lib.Rowwise Cert.Lib.RowVectors

/-- The reference's message stage is the array of all messages, the bias read as a row. -/
theorem message_stage (ea : FVec Ideal S800000x32 .f32) (gx : FVec Ideal S800000x64 .f32) (we : FVec Ideal S64x32 .f32)
    (be : FVec Ideal S64 .f32) (hrow : S64.ShapeCasts S1x64) :
    maximumf
      (addf gx
        (addf (Host.dotGeneral dot_S800000x32_S32x64_S800000x64_1_0_0_1_n_n none ea (transpose S32x64 [1, 0] we transposes_S64x32_S32x64_1_0))
          (broadcastInDim S800000x64 ![0, 1] bcast_S1x64_S800000x64_0_1 (broadcastInDim S1x64 ![1] bcast_S64_S1x64_1 be))))
      (broadcastInDim S800000x64 ![] bcast_S_S800000x64 (constant S_ .f32 0x00000000#32))
    = edgeOut ea gx we (shapeCast S1x64 be hrow) := by
  funext j
  obtain ⟨p, q, rfl⟩ : ∃ (p : Fin 800000) (q : Fin 64), j = ix2 p q := ⟨j 0, j 1, eq_ix2 j⟩
  rw [edgeOut_apply]
  unfold edgeRow
  rw [maximumf_apply, addf_apply, addf_apply, scalarInDim_apply, constant_apply,
    eq_plain dot_S800000x32_S32x64_S800000x64_1_0_0_1_n_n rfl rfl rfl rfl rfl rfl, dotGeneral_plain_apply,
    rowBroadcastInDim_apply _ _ (by decide), rowOfVectorInDim_apply _ _ (by decide), rowOfVectorCast_apply]
  refine congrArg (fun s => max (gx (ix2 p q) + (s + be (ix1 q))) zeroWord) (Finset.sum_congr rfl fun k _ => ?_)
  refine congrArg (ea (ix2 p k) * ·) ?_
  exact transpose_swap_apply _ _ k q

/-- The reference's update stage is the array of all updates, the biases read as rows. -/
theorem update_stage (x agg : FVec Ideal S50000x64 .f32) (w1 : FVec Ideal S64x64 .f32) (b1 : FVec Ideal S64 .f32)
    (w2 : FVec Ideal S64x64 .f32) (b2 : FVec Ideal S64 .f32) (hrow : S64.ShapeCasts S1x64) :
    addf
      (Host.dotGeneral dot_S50000x64_S64x64_S50000x64_1_0_0_1_n_n none
        (maximumf
          (addf
            (Host.dotGeneral dot_S50000x64_S64x64_S50000x64_1_0_0_1_n_n none
              (addf (mulf (broadcastInDim S50000x64 ![] bcast_S_S50000x64 (addf (constant S_ .f32 0x3F800000#32) (constant S_ .f32 0x00000000#32))) x) agg)
              (transpose S64x64 [1, 0] w1 transposes_S64x64_S64x64_1_0))
            (broadcastInDim S50000x64 ![0, 1] bcast_S1x64_S50000x64_0_1 (broadcastInDim S1x64 ![1] bcast_S64_S1x64_1 b1)))
          (broadcastInDim S50000x64 ![] bcast_S_S50000x64 (constant S_ .f32 0x00000000#32)))
        (transpose S64x64 [1, 0] w2 transposes_S64x64_S64x64_1_0))
      (broadcastInDim S50000x64 ![0, 1] bcast_S1x64_S50000x64_0_1 (broadcastInDim S1x64 ![1] bcast_S64_S1x64_1 b2))
    = nodeOut x agg w1 (shapeCast S1x64 b1 hrow) w2 (shapeCast S1x64 b2 hrow) := by
  funext j
  obtain ⟨p, q, rfl⟩ : ∃ (p : Fin 50000) (q : Fin 64), j = ix2 p q := ⟨j 0, j 1, eq_ix2 j⟩
  rw [nodeOut_apply]
  unfold nodeRow
  rw [addf_apply, eq_plain dot_S50000x64_S64x64_S50000x64_1_0_0_1_n_n rfl rfl rfl rfl rfl rfl, dotGeneral_plain_apply,
    rowBroadcastInDim_apply _ _ (by decide), rowOfVectorInDim_apply _ _ (by decide), rowOfVectorCast_apply]
  refine congrArg (fun s => s + b2 (ix1 q)) (Finset.sum_congr rfl fun k _ => ?_)
  refine congrArg₂ (· * ·) ?_ (transpose_swap_apply _ _ k q)
  unfold hiddenRow
  rw [maximumf_apply, addf_apply, scalarInDim_apply, constant_apply, dotGeneral_plain_apply,
    rowBroadcastInDim_apply _ _ (by decide), rowOfVectorInDim_apply _ _ (by decide), rowOfVectorCast_apply]
  refine congrArg (fun s => max (s + b1 (ix1 k)) zeroWord) (Finset.sum_congr rfl fun k' _ => ?_)
  refine congrArg₂ (· * ·) ?_ (transpose_swap_apply _ _ k' k)
  rw [addf_apply, mulf_apply, scalarInDim_apply, addf_apply, constant_apply, constant_apply, ofBits_one,
    Ideal.ofBits_zero_f32, add_zero, one_mul]

end Cert.ReferenceIdeal.Stages

end
-- ==== Proof.Equivalence.lean ====
/-
  The kernel program and the reference compute one function of their arguments.

  Both gather the source node's features for every edge with the same wrapped row indices, both add every message into
  its destination node's row of a zero array with the same indexed sum, and between and after these two steps each
  computes the same row-wise maps: the kernel program in blocks of rows on the device, the reference in one piece. The
  only arithmetic difference is the reference's factor `1.0 + 0.0` on the node features, which is the number 1. So the
  two results are one term, and no finiteness of the inputs is used.
-/
import proofs.«173156_j64707977282153_1_alg».proof.Proof.KernelValue
import proofs.«173156_j64707977282153_1_alg».proof.Proof.ReferenceStages
import proofs.«173156_j64707977282153_1_alg».proof.Proof.Gen.ReferenceIdeal.Run
import proofs.«173156_j64707977282153_1_alg».proof.Proof.Gen.Pre_finite_inputs
import proofs.«173156_j64707977282153_1_alg».proof.Defs

set_option maxRecDepth 16384

noncomputable section

namespace Cert.Proof.Equivalence

open Idealize.ShloMosaic Idealize.ShloMosaic.TcCoe Idealize.SL.Sem

/-- A length-64 vector can be cast to a row. -/
theorem row_cast : Cert.ReferenceIdeal.S64.ShapeCasts Cert.ReferenceIdeal.S1x64 := by decide

/-- At the extended reals the two idealized programs, run from memories that agree on the arguments, both end, with the
    same result and their arguments unchanged. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  rw [Cert.ReferenceIdeal.Stages.message_stage _ _ _ _ row_cast, Cert.ReferenceIdeal.Stages.update_stage _ _ _ _ _ _ row_cast]
  rfl

end Cert.Proof.Equivalence

end
-- ==== Proof.lean ====
/-
  A graph-convolution layer with edge features, as two device kernels between host gathers and sums, against its plain
  array-program reference: the two compute the same function on the extended reals.

  The layer: every edge's message is the clip at zero of its source node's features plus an affine image of the edge's own
  features; every node sums the messages of its incoming edges, adds its own features, and passes the sum through two
  affine layers with a clip at zero between them. The kernel program computes the messages in 50 blocks of edges and the
  updates in 5 blocks of nodes; a message and an update each read one row only, so the blocks are the rows of one
  whole-array map, and those maps are the reference's stages (Proof/Equivalence.lean). The three programs' runs
  terminate without fault and leave their arguments as launched; the idealized kernel program is the printed one read
  at the extended reals, no operation rewritten.
-/
import proofs.«173156_j64707977282153_1_alg».proof.Defs
import proofs.«173156_j64707977282153_1_alg».proof.Proof.Gen.Kernel
import proofs.«173156_j64707977282153_1_alg».proof.Proof.Gen.Kernel.Skeleton
import proofs.«173156_j64707977282153_1_alg».proof.Proof.Gen.Kernel.Launch
import proofs.«173156_j64707977282153_1_alg».proof.Proof.Gen.Kernel.Points
import proofs.«173156_j64707977282153_1_alg».proof.Proof.Gen.Kernel.Frame
import proofs.«173156_j64707977282153_1_alg».proof.Proof.Gen.KernelIdeal
import proofs.«173156_j64707977282153_1_alg».proof.Proof.Gen.KernelIdeal.Skeleton
import proofs.«173156_j64707977282153_1_alg».proof.Proof.Gen.KernelIdeal.Launch
import proofs.«173156_j64707977282153_1_alg».proof.Proof.Gen.KernelIdeal.Points
import proofs.«173156_j64707977282153_1_alg».proof.Proof.Gen.KernelIdeal.Frame
import proofs.«173156_j64707977282153_1_alg».proof.Proof.Gen.ReferenceIdeal
import proofs.«173156_j64707977282153_1_alg».proof.Proof.Gen.ReferenceIdeal.Run
import proofs.«173156_j64707977282153_1_alg».proof.Proof.Gen.Pre_finite_inputs
import proofs.«173156_j64707977282153_1_alg».proof.Proof.Equivalence
import Idealize.ShloMosaic.Adequacy
import Idealize.ShloMosaic.Init

noncomputable section

namespace Cert.Proof

open Idealize.ShloMosaic Idealize.SL.Sem Cert.Kernel

/-- The printed kernel program runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Equivalence.algebraic⟩

end Cert.Proof

end
